-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x256 : Shape := ⟨3, ![32, 128, 256]⟩
abbrev S32x128 : Shape := ⟨2, ![32, 128]⟩
abbrev S_ : Shape := ⟨0, ![]⟩

class Facts : Prop where
  bcast_S_S32x128x256 : S_.BroadcastsInDim S32x128x256 (![] : Fin 0 → Fin S32x128x256.rank)
  reducesTo_S32x128x256_S_d0_1_2 : S32x128x256.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn {F : FTy → Type} [FloatOps F] (main_arg0 : FVec F S32x128x256 .f32) (main_arg1 : FVec F S32x128x256 .f32) (main_arg2 : FVec F S32x128 .f32) : IVec S_ 1 :=
  let main_v0 : FVec F S32x128x256 .f32 := Host.absf main_arg0
  let main_cst : FVec F S_ .f32 := constant S_ .f32 0x7F800000#32
  let main_v1 : FVec F S32x128x256 .f32 := broadcastInDim S32x128x256 ![] bcast_S_S32x128x256 main_cst
  let main_v2 : IVec S32x128x256 1 := cmpf .olt main_v0 main_v1
  let main_c : IVec S_ 1 := constantI S_ 1 1#1
  let main_v3 : IVec S_ 1 := (fun x v => Host.reduce IntOp.andi x v reducesTo_S32x128x256_S_d0_1_2 h_S_) main_v2 main_c
  let main_v4 : FVec F S32x128x256 .f32 := Host.absf main_arg1
  let main_cst_0 : FVec F S_ .f32 := constant S_ .f32 0x7F800000#32
  let main_v5 : FVec F S32x128x256 .f32 := broadcastInDim S32x128x256 ![] bcast_S_S32x128x256 main_cst_0
  let main_v6 : IVec S32x128x256 1 := cmpf .olt main_v4 main_v5
  let main_c_1 : IVec S_ 1 := constantI S_ 1 1#1
  let main_v7 : IVec S_ 1 := (fun x v => Host.reduce IntOp.andi x v reducesTo_S32x128x256_S_d0_1_2 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  main_v13
-- ==== Kernel.lean ====
abbrev S32x128x256 : Shape := ⟨3, ![32, 128, 256]⟩
abbrev S32x128 : Shape := ⟨2, ![32, 128]⟩
abbrev S32x128x1 : Shape := ⟨3, ![32, 128, 1]⟩
abbrev S32x256x256 : Shape := ⟨3, ![32, 256, 256]⟩
abbrev S8x128x256 : Shape := ⟨3, ![8, 128, 256]⟩
abbrev S8x128x1 : Shape := ⟨3, ![8, 128, 1]⟩
abbrev S8x256x256 : Shape := ⟨3, ![8, 256, 256]⟩

abbrev nBuf : Space → Nat
  | .hbm => 6
  | .vmem => 10
  | .smem => 0
  | _ => 0

abbrev bufTy : (tb : Table) → Fin (tcTables nBuf tb) → BufTy
  | .hbm, ⟨0, _⟩ => ⟨S32x128x256, .f32⟩
  | .hbm, ⟨1, _⟩ => ⟨S32x128x256, .f32⟩
  | .hbm, ⟨2, _⟩ => ⟨S32x128, .f32⟩
  | .hbm, ⟨3, _⟩ => ⟨S32x128x1, .f32⟩
  | .hbm, ⟨4, _⟩ => ⟨S32x256x256, .f32⟩
  | .hbm, ⟨5, _⟩ => ⟨S32x256x256, .f32⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x128x1, .f32⟩
  | .local _ .vmem, ⟨5, _⟩ => ⟨S8x128x1, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .f32⟩
  | .local _ .vmem, ⟨9, _⟩ => ⟨S8x256x256, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x128_S32x128x1 : S32x128.ShapeCasts S32x128x1
  inb_S8x128x256_S8x128x256_0_0_0 : ∀ a, (![0, 0, 0] : Fin 3 → Nat) a + S8x128x256.size a ≤ S8x128x256.size a
  h_S8x128x256 : 0 < S8x128x256.numel
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  broadcasts_S8x128x1_S8x128x256 : S8x128x1.Broadcasts S8x128x256
  bitsLt_bf16_f32 : FTy.bits .bf16 < FTy.bits .f32
  inb_S8x256x256_S8x256x256_0_0_0 : ∀ a, (![0, 0, 0] : Fin 3 → Nat) a + S8x256x256.size a ≤ S8x256x256.size a
  h_S8x256x256 : 0 < S8x256x256.numel
  dot_S8x128x256_S8x128x256_S8x256x256_1_1_2_2_0_0_wf : DotDims.WF S8x128x256 S8x128x256 S8x256x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S32x128x256.size a
  hwx0_0 : ∀ i : grid0.Coords, EltTy.bits .f32 = 32 ∨ (Rect.block (s := S32x128x256) S8x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x256.size a ≤ S32x128x256.size a
  hwx0_1 : ∀ i : grid0.Coords, EltTy.bits .f32 = 32 ∨ (Rect.block (s := S32x128x256) S8x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1.size a ≤ S32x128x1.size a
  hwx0_2 : ∀ i : grid0.Coords, EltTy.bits .f32 = 32 ∨ (Rect.block (s := S32x128x1) S8x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S32x256x256.size a
  hwx0_3 : ∀ i : grid0.Coords, EltTy.bits .f32 = 32 ∨ (Rect.block (s := S32x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S32x256x256.size a
  hwx0_4 : ∀ i : grid0.Coords, EltTy.bits .f32 = 32 ∨ (Rect.block (s := S32x256x256) S8x256x256.size (cc0_transform_4 i) (hinb0_4 i)).WholeWords (EltTy.packing .f32)

variable [Facts₀]

def dot_S8x128x256_S8x128x256_S8x256x256_1_1_2_2_0_0 : DotDims S8x128x256 S8x128x256 S8x256x256 where
  lhsContracting := [1]
  rhsContracting := [1]
  lhsNonContracting := [2]
  rhsNonContracting := [2]
  lhsBatch := [0]
  rhsBatch := [0]
  wf := dot_S8x128x256_S8x128x256_S8x256x256_1_1_2_2_0_0_wf

abbrev win0_0 : Pipeline.Window sig grid0 :=
  Pipeline.Window.ofSpec (Memref.whole main_arg0) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S8x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S8x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x256 : Shape := ⟨3, ![32, 128, 256]⟩
abbrev S32x128 : Shape := ⟨2, ![32, 128]⟩
abbrev S32x128x1 : Shape := ⟨3, ![32, 128, 1]⟩
abbrev S32x256x256 : Shape := ⟨3, ![32, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S32x128x256, .f32⟩
  | .hbm, ⟨2, _⟩ => ⟨S32x128, .f32⟩
  | .hbm, ⟨3, _⟩ => ⟨S32x128x1, .f32⟩
  | .hbm, ⟨4, _⟩ => ⟨S32x128x256, .f32⟩
  | .hbm, ⟨5, _⟩ => ⟨S32x128x256, .f32⟩
  | .hbm, ⟨6, _⟩ => ⟨S32x128x1, .f32⟩
  | .hbm, ⟨7, _⟩ => ⟨S32x128x256, .f32⟩
  | .hbm, ⟨8, _⟩ => ⟨S32x128x256, .f32⟩
  | .hbm, ⟨9, _⟩ => ⟨S32x256x256, .f32⟩
  | .hbm, ⟨10, _⟩ => ⟨S32x256x256, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S32x128x1_S32x128x256_0_1_2 : S32x128x1.BroadcastsInDim S32x128x256 (![0, 1, 2] : Fin 3 → Fin S32x128x256.rank)
  dot_S32x128x256_S32x128x256_S32x256x256_1_1_2_2_0_0_wf : DotDims.WF S32x128x256 S32x128x256 S32x256x256 [1] [1] [2] [2] [0] [0]

variable [Facts₀]

def dot_S32x128x256_S32x128x256_S32x256x256_1_1_2_2_0_0 : DotDims S32x128x256 S32x128x256 S32x256x256 where
  lhsContracting := [1]
  rhsContracting := [1]
  lhsNonContracting := [2]
  rhsNonContracting := [2]
  lhsBatch := [0]
  rhsBatch := [0]
  wf := dot_S32x128x256_S32x128x256_S32x256x256_1_1_2_2_0_0_wf

class Facts : Prop extends Facts₀ where

variable [Facts]
-- ==== Proof.Spec.lean ====
/-
  The weighted mixture of rank-one matrices over the sequence axis, as functions of the three argument arrays.

  For a batch `b`, sequence positions `s < 128` and components `n, p < 256`, with `r`, `i` the real and imaginary
  parts of a vector per position and `w` a weight per position, the mixture `Σ_s w[b,s] · v[b,s] v[b,s]ᴴ` has
    real part       Σ_s (r[b,s,n]·w[b,s])·r[b,s,p] + Σ_s (i[b,s,n]·w[b,s])·i[b,s,p]
    imaginary part  Σ_s (i[b,s,n]·w[b,s])·r[b,s,p] − Σ_s (r[b,s,n]·w[b,s])·i[b,s,p].
  All four sums are one weighted contraction `wgram` of two arrays; both programs compute exactly these sums, with
  the weight multiplied into the FIRST factor before the contraction, so the two sides agree term by term on the
  extended reals and no algebraic law (hence no finiteness of the inputs) is needed to join them.
-/
import Idealize.ShloMosaic.PureOps.Ideal
import Idealize.ShloMosaic.Lib.ValueIdx

noncomputable section

namespace Cert.Mixture

open Idealize.ShloMosaic Idealize.ShloMosaic.ValueIdx

/-- The batch coordinate of an index of a result array. -/
abbrev bat (j : (⟨3, ![32, 256, 256]⟩ : Shape).Idx) : Fin 32 := ⟨(j 0).val, (j 0).isLt⟩
/-- Its row component. -/
abbrev row (j : (⟨3, ![32, 256, 256]⟩ : Shape).Idx) : Fin 256 := ⟨(j 1).val, (j 1).isLt⟩
/-- Its column component. -/
abbrev col (j : (⟨3, ![32, 256, 256]⟩ : Shape).Idx) : Fin 256 := ⟨(j 2).val, (j 2).isLt⟩

/-- The weighted contraction over the sequence axis: at `(b, n, p)` the sum over `s` of
    `(a[b,s,n] · w[b,s]) · c[b,s,p]`. -/
def wgram (a c : FVec Ideal ⟨3, ![32, 128, 256]⟩ .f32) (w : FVec Ideal ⟨2, ![32, 128]⟩ .f32) :
    FVec Ideal ⟨3, ![32, 256, 256]⟩ .f32 :=
  fun j => ∑ s : Fin 128, (a (ix3 (bat j) s (row j)) * w (ix2 (bat j) s)) * c (ix3 (bat j) s (col j))

/-- The real part of the mixture: the contraction of the real parts plus that of the imaginary parts. -/
def re (r i : FVec Ideal ⟨3, ![32, 128, 256]⟩ .f32) (w : FVec Ideal ⟨2, ![32, 128]⟩ .f32) :
    FVec Ideal ⟨3, ![32, 256, 256]⟩ .f32 :=
  fun j => wgram r r w j + wgram i i w j

/-- The imaginary part of the mixture: the cross contraction (imaginary, real) minus the cross contraction (real, imaginary). -/
def im (r i : FVec Ideal ⟨3, ![32, 128, 256]⟩ .f32) (w : FVec Ideal ⟨2, ![32, 128]⟩ .f32) :
    FVec Ideal ⟨3, ![32, 256, 256]⟩ .f32 :=
  fun j => wgram i r w j - wgram r i w j

end Cert.Mixture

end
-- ==== Proof.RefSide.lean ====
/-
  The reference at an index is the mixture.

  The reference broadcasts the weight `w[b,s]` along the component axis, multiplies it into the real and the
  imaginary array, and contracts over the sequence axis `s` with the batch axis carried: each of its four
  contractions, read at `(b, n, p)`, is `Σ_s (x[b,s,n] · w[b,s]) · y[b,s,p]` — the weighted contraction `wgram` —,
  and its two results are their sum and their difference.
-/
import proofs.«153771_j71313636983193_1_alg».proof.Proof.Gen.ReferenceIdeal.Read
import proofs.«153771_j71313636983193_1_alg».proof.Proof.Spec

noncomputable section

namespace Cert.ReferenceIdeal.RefSide

open Cert.ReferenceIdeal Cert.ReferenceIdeal.Read Idealize.ShloMosaic Idealize.ShloMosaic.ValueIdx Cert.Mixture

/-- The first factor's index at `(b, n, p)` and sequence position `s` is `(b, s, n)`. -/
theorem lidx_eq (i : S32x256x256.Idx) (s : Fin 128) :
    (fun a => match a with
      | ⟨0, _⟩ => ⟨(i 0).val, (i 0).isLt⟩
      | ⟨1, _⟩ => ⟨s.val, s.isLt⟩
      | ⟨2, _⟩ => ⟨(i 1).val, (i 1).isLt⟩ : S32x128x256.Idx) = ix3 (bat i) s (row i) :=
  funext fun a => Fin.ext (by match a with | ⟨0, _⟩ => rfl | ⟨1, _⟩ => rfl | ⟨2, _⟩ => rfl)

/-- The second factor's index there is `(b, s, p)`. -/
theorem ridx_eq (i : S32x256x256.Idx) (s : Fin 128) :
    (fun a => match a with
      | ⟨0, _⟩ => ⟨(i 0).val, (i 0).isLt⟩
      | ⟨1, _⟩ => ⟨s.val, s.isLt⟩
      | ⟨2, _⟩ => ⟨(i 2).val, (i 2).isLt⟩ : S32x128x256.Idx) = ix3 (bat i) s (col i) :=
  funext fun a => Fin.ext (by match a with | ⟨0, _⟩ => rfl | ⟨1, _⟩ => rfl | ⟨2, _⟩ => rfl)

/-- The weight broadcast along the components, read at `(b, s, n)`, is `w[b,s]`. -/
theorem widx_eq (b : Fin 32) (s : Fin 128) (n : Fin 256) :
    idx_main_v0 (idx_main_v1 (ix3 b s n)) = ix2 b s :=
  funext fun a => Fin.ext (by match a with | ⟨0, _⟩ => rfl | ⟨1, _⟩ => rfl)

/-- The weighted real array, `x0 · w` broadcast, at `(b, s, n)`. -/
theorem scaled_re_apply (x0 : FVec Ideal S32x128x256 .f32) (x2 : FVec Ideal S32x128 .f32) (b : Fin 32) (s : Fin 128) (n : Fin 256) :
    val_main_v2 (F := Ideal) x0 x2 (ix3 b s n) = x0 (ix3 b s n) * x2 (ix2 b s) := by
  rw [val_main_v2_apply, val_main_v1_apply, val_main_v0_apply, widx_eq]; rfl

/-- The weighted imaginary array at `(b, s, n)`. -/
theorem scaled_im_apply (x1 : FVec Ideal S32x128x256 .f32) (x2 : FVec Ideal S32x128 .f32) (b : Fin 32) (s : Fin 128) (n : Fin 256) :
    val_main_v5 (F := Ideal) x1 x2 (ix3 b s n) = x1 (ix3 b s n) * x2 (ix2 b s) := by
  rw [val_main_v5_apply, val_main_v4_apply, val_main_v3_apply]
  exact congrArg (fun k => x1 (ix3 b s n) * x2 k) (widx_eq b s n)

/-- The contraction of the weighted real array with the real array is `wgram x0 x0`. -/
theorem v6_eq (x0 : FVec Ideal S32x128x256 .f32) (x2 : FVec Ideal S32x128 .f32) :
    val_main_v6 (F := Ideal) x0 x2 = wgram x0 x0 x2 := by
  funext i
  rw [val_main_v6_apply]
  refine Finset.sum_congr rfl fun s _ => ?_
  show val_main_v2 (F := Ideal) x0 x2 (lidx_main_v6 i s) * x0 (ridx_main_v6 i s) = _
  rw [show lidx_main_v6 i s = ix3 (bat i) s (row i) from lidx_eq i s,
    show ridx_main_v6 i s = ix3 (bat i) s (col i) from ridx_eq i s, scaled_re_apply]

/-- The contraction of the weighted imaginary array with the imaginary array is `wgram x1 x1`. -/
theorem v7_eq (x1 : FVec Ideal S32x128x256 .f32) (x2 : FVec Ideal S32x128 .f32) :
    val_main_v7 (F := Ideal) x1 x2 = wgram x1 x1 x2 := by
  funext i
  rw [val_main_v7_apply]
  refine Finset.sum_congr rfl fun s _ => ?_
  show val_main_v5 (F := Ideal) x1 x2 (lidx_main_v7 i s) * x1 (ridx_main_v7 i s) = _
  rw [show lidx_main_v7 i s = ix3 (bat i) s (row i) from lidx_eq i s,
    show ridx_main_v7 i s = ix3 (bat i) s (col i) from ridx_eq i s, scaled_im_apply]

/-- The contraction of the weighted imaginary array with the real array is `wgram x1 x0`. -/
theorem v9_eq (x0 x1 : FVec Ideal S32x128x256 .f32) (x2 : FVec Ideal S32x128 .f32) :
    val_main_v9 (F := Ideal) x0 x1 x2 = wgram x1 x0 x2 := by
  funext i
  rw [val_main_v9_apply]
  refine Finset.sum_congr rfl fun s _ => ?_
  show val_main_v5 (F := Ideal) x1 x2 (lidx_main_v9 i s) * x0 (ridx_main_v9 i s) = _
  rw [show lidx_main_v9 i s = ix3 (bat i) s (row i) from lidx_eq i s,
    show ridx_main_v9 i s = ix3 (bat i) s (col i) from ridx_eq i s, scaled_im_apply]

/-- The contraction of the weighted real array with the imaginary array is `wgram x0 x1`. -/
theorem v10_eq (x0 x1 : FVec Ideal S32x128x256 .f32) (x2 : FVec Ideal S32x128 .f32) :
    val_main_v10 (F := Ideal) x0 x1 x2 = wgram x0 x1 x2 := by
  funext i
  rw [val_main_v10_apply]
  refine Finset.sum_congr rfl fun s _ => ?_
  show val_main_v2 (F := Ideal) x0 x2 (lidx_main_v10 i s) * x1 (ridx_main_v10 i s) = _
  rw [show lidx_main_v10 i s = ix3 (bat i) s (row i) from lidx_eq i s,
    show ridx_main_v10 i s = ix3 (bat i) s (col i) from ridx_eq i s, scaled_re_apply]

/-- The reference's first result is the real part of the mixture. -/
theorem real_part (x0 x1 : FVec Ideal S32x128x256 .f32) (x2 : FVec Ideal S32x128 .f32) :
    val_main_v8 (F := Ideal) x0 x1 x2 = Mixture.re x0 x1 x2 := by
  funext i
  rw [val_main_v8_apply, v6_eq, v7_eq]; rfl

/-- The reference's second result is the imaginary part of the mixture. -/
theorem imag_part (x0 x1 : FVec Ideal S32x128x256 .f32) (x2 : FVec Ideal S32x128 .f32) :
    val_main_v11 (F := Ideal) x0 x1 x2 = Mixture.im x0 x1 x2 := by
  funext i
  rw [val_main_v11_apply, v9_eq, v10_eq]; rfl

end Cert.ReferenceIdeal.RefSide

end
-- ==== Proof.Payload.lean ====
/-
  What the kernel body computes on one block of 8 batches, index by index, on the extended reals.

  The body multiplies the block's weight column `w[b,s,0]` into the real and the imaginary block (a broadcast along
  the component axis), changes the float format (the identity on the extended reals), and forms four batched
  matrix products into a zero accumulator, each contracting the sequence axis `s` with the batch axis `b` carried:
  at `(b, n, p)` such a product of `l` and `r` is `Σ_s l[b,s,n] · r[b,s,p]`. The stored values are the sum of two
  of them (real part) and the difference of the other two (imaginary part).
-/
import proofs.«153771_j71313636983193_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The operand indices of the batched product -/

theorem lhs_0 (i : S8x256x256.Idx) (q : dot_S8x128x256_S8x128x256_S8x256x256_1_1_2_2_0_0.contr.Idx) :
    (dot_S8x128x256_S8x128x256_S8x256x256_1_1_2_2_0_0.lhsIdx i q 0).val = (i 0).val := by
  unfold DotDims.lhsIdx
  rw [dif_pos (show (0 : Fin S8x128x256.rank) ∈ dot_S8x128x256_S8x128x256_S8x256x256_1_1_2_2_0_0.lhsBatch by decide)]
  rfl
theorem lhs_1 (i : S8x256x256.Idx) (q : dot_S8x128x256_S8x128x256_S8x256x256_1_1_2_2_0_0.contr.Idx) :
    (dot_S8x128x256_S8x128x256_S8x256x256_1_1_2_2_0_0.lhsIdx i q 1).val = (q ⟨0, by decide⟩).val :=
  dot_S8x128x256_S8x128x256_S8x256x256_1_1_2_2_0_0.lhsIdx_val_of_single rfl i q
theorem lhs_2 (i : S8x256x256.Idx) (q : dot_S8x128x256_S8x128x256_S8x256x256_1_1_2_2_0_0.contr.Idx) :
    (dot_S8x128x256_S8x128x256_S8x256x256_1_1_2_2_0_0.lhsIdx i q 2).val = (i 1).val := by
  unfold DotDims.lhsIdx
  rw [dif_neg (show ¬(2 : Fin S8x128x256.rank) ∈ dot_S8x128x256_S8x128x256_S8x256x256_1_1_2_2_0_0.lhsBatch by decide), dif_pos (show (2 : Fin S8x128x256.rank) ∈ dot_S8x128x256_S8x128x256_S8x256x256_1_1_2_2_0_0.lhsNonContracting by decide)]
  rfl
theorem rhs_0 (i : S8x256x256.Idx) (q : dot_S8x128x256_S8x128x256_S8x256x256_1_1_2_2_0_0.contr.Idx) :
    (dot_S8x128x256_S8x128x256_S8x256x256_1_1_2_2_0_0.rhsIdx i q 0).val = (i 0).val := by
  unfold DotDims.rhsIdx
  rw [dif_pos (show (0 : Fin S8x128x256.rank) ∈ dot_S8x128x256_S8x128x256_S8x256x256_1_1_2_2_0_0.rhsBatch by decide)]
  rfl
theorem rhs_1 (i : S8x256x256.Idx) (q : dot_S8x128x256_S8x128x256_S8x256x256_1_1_2_2_0_0.contr.Idx) :
    (dot_S8x128x256_S8x128x256_S8x256x256_1_1_2_2_0_0.rhsIdx i q 1).val = (q ⟨0, by decide⟩).val :=
  dot_S8x128x256_S8x128x256_S8x256x256_1_1_2_2_0_0.rhsIdx_val_of_single rfl i q
theorem rhs_2 (i : S8x256x256.Idx) (q : dot_S8x128x256_S8x128x256_S8x256x256_1_1_2_2_0_0.contr.Idx) :
    (dot_S8x128x256_S8x128x256_S8x256x256_1_1_2_2_0_0.rhsIdx i q 2).val = (i 2).val := by
  unfold DotDims.rhsIdx
  rw [dif_neg (show ¬(2 : Fin S8x128x256.rank) ∈ dot_S8x128x256_S8x128x256_S8x256x256_1_1_2_2_0_0.rhsBatch by decide), dif_pos (show (2 : Fin S8x128x256.rank) ∈ dot_S8x128x256_S8x128x256_S8x256x256_1_1_2_2_0_0.rhsNonContracting by decide)]
  rfl

/-! ## The batched product into zero, at an index -/

/-- The batched product of two blocks into the zero accumulator, read at `(b, n, p)`: the sum over the sequence
    positions `s` of `l[b,s,n] · r[b,s,p]`. -/
theorem bmm_apply (l r : FVec Ideal S8x128x256 .bf16) (b : Fin 8) (n p : Fin 256) :
    matmul dot_S8x128x256_S8x128x256_S8x256x256_1_1_2_2_0_0 none l r (constant S8x256x256 .f32 0x00000000#32) (ix3 b n p)
      = ∑ s : Fin 128, l (ix3 b s n) * r (ix3 b s p) := by
  simp only [matmul]
  rw [Ideal.matmul_constant_zero_apply, ← Equiv.sum_comp (contrEquiv1 dot_S8x128x256_S8x128x256_S8x256x256_1_1_2_2_0_0 128 rfl rfl).symm]
  refine Finset.sum_congr rfl fun s _ => ?_
  have hk := contrEquiv1_symm_val dot_S8x128x256_S8x128x256_S8x256x256_1_1_2_2_0_0 128 rfl rfl s
  have el : dot_S8x128x256_S8x128x256_S8x256x256_1_1_2_2_0_0.lhsIdx (ix3 b n p) ((contrEquiv1 dot_S8x128x256_S8x128x256_S8x256x256_1_1_2_2_0_0 128 rfl rfl).symm s) = ix3 b s n := funext fun a => Fin.ext (by
    match a with
    | ⟨0, _⟩ => exact lhs_0 _ _
    | ⟨1, _⟩ => exact (lhs_1 _ _).trans hk
    | ⟨2, _⟩ => exact lhs_2 _ _)
  have er : dot_S8x128x256_S8x128x256_S8x256x256_1_1_2_2_0_0.rhsIdx (ix3 b n p) ((contrEquiv1 dot_S8x128x256_S8x128x256_S8x256x256_1_1_2_2_0_0 128 rfl rfl).symm s) = ix3 b s p := funext fun a => Fin.ext (by
    match a with
    | ⟨0, _⟩ => exact rhs_0 _ _
    | ⟨1, _⟩ => exact (rhs_1 _ _).trans hk
    | ⟨2, _⟩ => exact rhs_2 _ _)
  rw [el, er]

/-! ## The weighted blocks -/

/-- The weight column broadcast along the components, read at `(b, s, n)`, is `w[b,s,0]`. -/
theorem wcol_apply (w : Vec Ideal S8x128x1 .f32) (b : Fin 8) (s : Fin 128) (n : Fin 256) :
    broadcastTo S8x128x256 (k0_pay1 w) broadcasts_S8x128x1_S8x128x256 (ix3 b s n) = w (ix3 b s (0 : Fin 1)) := by
  unfold k0_pay1
  rw [shapeCast_self]
  exact broadcastTo_apply w broadcasts_S8x128x1_S8x128x256 (ix3 b s n) (ix3 b s (0 : Fin 1)) (fun a => match a with
    | ⟨0, _⟩ => by show b.val = if (8 : Nat) = 1 then 0 else b.val; rw [if_neg (by decide)]
    | ⟨1, _⟩ => by show s.val = if (128 : Nat) = 1 then 0 else s.val; rw [if_neg (by decide)]
    | ⟨2, _⟩ => by show 0 = if (1 : Nat) = 1 then 0 else n.val; rw [if_pos rfl])

/-- The weighted real block at `(b, s, n)`: `x[b,s,n] · w[b,s,0]` (the change of format is the identity). -/
theorem scaled0_apply (x : Vec Ideal S8x128x256 .f32) (w : Vec Ideal S8x128x1 .f32) (b : Fin 8) (s : Fin 128) (n : Fin 256) :
    k0_pay2 x w (ix3 b s n) = x (ix3 b s n) * w (ix3 b s (0 : Fin 1)) := by
  unfold k0_pay2
  exact congrArg (fun z => x (ix3 b s n) * z) (wcol_apply w b s n)

/-- The weighted imaginary block at `(b, s, n)`. -/
theorem scaled1_apply (x : Vec Ideal S8x128x256 .f32) (w : Vec Ideal S8x128x1 .f32) (b : Fin 8) (s : Fin 128) (n : Fin 256) :
    k0_pay3 x w (ix3 b s n) = x (ix3 b s n) * w (ix3 b s (0 : Fin 1)) := by
  unfold k0_pay3
  exact congrArg (fun z => x (ix3 b s n) * z) (wcol_apply w b s n)

/-- The real block in the product's format is the real block. -/
theorem plain0_apply (x : Vec Ideal S8x128x256 .f32) (j : S8x128x256.Idx) : k0_pay4 x j = x j := rfl
/-- The imaginary block in the product's format is the imaginary block. -/
theorem plain1_apply (x : Vec Ideal S8x128x256 .f32) (j : S8x128x256.Idx) : k0_pay5 x j = x j := rfl

/-! ## The two stored values -/

/-- The value stored to the real output block, at `(b, n, p)`. -/
theorem real_apply (x0 x1 : Vec Ideal S8x128x256 .f32) (w : Vec Ideal S8x128x1 .f32) (b : Fin 8) (n p : Fin 256) :
    k0_pay6 x0 x1 w (ix3 b n p)
      = (∑ s : Fin 128, (x0 (ix3 b s n) * w (ix3 b s (0 : Fin 1))) * x0 (ix3 b s p))
        + ∑ s : Fin 128, (x1 (ix3 b s n) * w (ix3 b s (0 : Fin 1))) * x1 (ix3 b s p) := by
  unfold k0_pay6
  refine (congrArg₂ (fun u v : EReal => u + v) (bmm_apply (k0_pay2 x0 w) (k0_pay4 x0) b n p) (bmm_apply (k0_pay3 x1 w) (k0_pay5 x1) b n p)).trans ?_
  simp only [scaled0_apply, scaled1_apply, plain0_apply, plain1_apply]

/-- The value stored to the imaginary output block, at `(b, n, p)`. -/
theorem imag_apply (x0 x1 : Vec Ideal S8x128x256 .f32) (w : Vec Ideal S8x128x1 .f32) (b : Fin 8) (n p : Fin 256) :
    k0_pay7 x0 x1 w (ix3 b n p)
      = (∑ s : Fin 128, (x1 (ix3 b s n) * w (ix3 b s (0 : Fin 1))) * x0 (ix3 b s p))
        - ∑ s : Fin 128, (x0 (ix3 b s n) * w (ix3 b s (0 : Fin 1))) * x1 (ix3 b s p) := by
  unfold k0_pay7
  refine (congrArg₂ (fun u v : EReal => u - v) (bmm_apply (k0_pay3 x1 w) (k0_pay4 x0) b n p) (bmm_apply (k0_pay2 x0 w) (k0_pay5 x1) b n p)).trans ?_
  simp only [scaled0_apply, scaled1_apply, plain0_apply, plain1_apply]

end Cert.KernelIdeal.Payload

end
-- ==== Proof.Blocks.lean ====
/-
  From blocks to arrays: after the kernel's run its two result arrays hold the real and the imaginary part of the
  mixture of the argument arrays.

  The grid has 4 points; point `t` works on batches `8t … 8t+7`: every window's block index at `t` is `(t, 0, 0)`,
  so entry `(b, ·, ·)` of a block at `t` is entry `(8t + b, ·, ·)` of its array. The weight reaches the kernel as a
  column array `[32, 128, 1]`, a reshape of the `[32, 128]` argument: its entry `(g, s, 0)` is `w[g, s]`. With the
  body's stored values read index by index, what point `t` writes back is block `t` of the mixture's real
  (imaginary) part; the four blocks cover the result arrays (batch `g` lies in the block of point `g / 8`), so the
  arrays end holding the mixture.
-/
import proofs.«153771_j71313636983193_1_alg».proof.Proof.Gen.KernelIdeal.Value
import proofs.«153771_j71313636983193_1_alg».proof.Proof.Payload
import proofs.«153771_j71313636983193_1_alg».proof.Proof.Spec
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-! ## Where a block sits -/

/-- The printed index maps, decided over the four grid points: every window's block index at point `t` is `(t, 0, 0)`. -/
theorem idx_facts : ∀ t : Fin cfg0.N, t.val ≤ 3
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Every quarter of the batch axis is some point's. -/
theorem point_onto : ∀ q : Fin 4, ∃ t : Fin cfg0.N, t.val = q.val :=
  (by decide +kernel : ∀ q : Fin 4, ∃ t : Fin grid0.N, t.val = q.val)

/-- The batch that entry `b` of a block at point `t` belongs to: `8t + b`. -/
def batchOf (t : Fin cfg0.N) (b : Fin 8) : Fin 32 := ⟨t.val * 8 + b.val, by have := (idx_facts t).1; omega⟩

/-! ## The blocks of the three inputs -/

/-- Entry `(b, s, n)` of the real array's block at point `t` is the argument's entry `(8t + b, s, n)`. -/
theorem real_in (c : Dev nD) (t : Fin cfg0.N) (b : Fin 8) (s : Fin 128) (n : Fin 256) :
    iblk m c 0 t (ix3 b s n) = (m ((c : Thread nD τ).loc main_arg0)) (ix3 (batchOf t b) s n) := by
  show V m c main_arg0 (((cfg0.win 0).blk t).view.emb (ix3 b s n)) = _
  rw [V_main_arg0]
  obtain ⟨ht, e0, e1, e2, -⟩ := idx_facts t
  refine congrArg _ (funext fun a => Fin.ext ?_)
  match a with
  | ⟨0, _⟩ => show win0_0.index t (0 : Fin 3) * 8 + 1 * b.val = t.val * 8 + b.val; omega
  | ⟨1, _⟩ => show win0_0.index t (1 : Fin 3) * 128 + 1 * s.val = s.val; omega
  | ⟨2, _⟩ => show win0_0.index t (2 : Fin 3) * 256 + 1 * n.val = n.val; omega

/-- Entry `(b, s, n)` of the imaginary array's block at point `t` is the argument's entry `(8t + b, s, n)`. -/
theorem imag_in (c : Dev nD) (t : Fin cfg0.N) (b : Fin 8) (s : Fin 128) (n : Fin 256) :
    iblk m c 1 t (ix3 b s n) = (m ((c : Thread nD τ).loc main_arg1)) (ix3 (batchOf t b) s n) := by
  show V m c main_arg1 (((cfg0.win 1).blk t).view.emb (ix3 b s n)) = _
  rw [V_main_arg1]
  obtain ⟨ht, -, -, -, e0, e1, e2, -⟩ := idx_facts t
  refine congrArg _ (funext fun a => Fin.ext ?_)
  match a with
  | ⟨0, _⟩ => show win0_1.index t (0 : Fin 3) * 8 + 1 * b.val = t.val * 8 + b.val; omega
  | ⟨1, _⟩ => show win0_1.index t (1 : Fin 3) * 128 + 1 * s.val = s.val; omega
  | ⟨2, _⟩ => show win0_1.index t (2 : Fin 3) * 256 + 1 * n.val = n.val; omega

/-- The region finds the weight column array as the reshape of the weight argument. -/
theorem wcol_eq (c : Dev nD) :
    (V m c main_v0 : S32x128x1.Idx → EReal) = shapeCast S32x128x1 (m ((c : Thread nD τ).loc main_arg2)) shapeCasts_S32x128_S32x128x1 := by
  dsimp only [Gen.V, Gen.hostOps0]; after_results; rfl

/-- Entry `(b, s, 0)` of the weight column's block at point `t` is the weight `w[8t + b, s]`. -/
theorem weight_in (c : Dev nD) (t : Fin cfg0.N) (b : Fin 8) (s : Fin 128) :
    iblk m c 2 t (ix3 b s (0 : Fin 1)) = (m ((c : Thread nD τ).loc main_arg2)) (ix2 (batchOf t b) s) := by
  show V m c main_v0 (((cfg0.win 2).blk t).view.emb (ix3 b s (0 : Fin 1))) = _
  rw [wcol_eq]
  obtain ⟨ht, -, -, -, -, -, -, e0, e1, e2, -⟩ := idx_facts t
  refine shapeCast_apply _ _ _ _ ?_
  show (S32x128.rowMajor (ix2 (batchOf t b) s)).val = (S32x128x1.rowMajor (((cfg0.win 2).blk t).view.emb (ix3 b s (0 : Fin 1)))).val
  rw [Shape.rowMajor_val_two, Shape.rowMajor_val_three]
  show (t.val * 8 + b.val) * 128 + s.val
    = ((win0_2.index t (0 : Fin 3) * 8 + 1 * b.val) * 128 + (win0_2.index t (1 : Fin 3) * 128 + 1 * s.val)) * 1 + (win0_2.index t (2 : Fin 3) * 1 + 1 * 0)
  omega

/-! ## The real part -/

/-- The coordinates of entry `(b, n, p)` of the real output's block at point `t`, in the array. -/
theorem real_out (t : Fin cfg0.N) (b : Fin 8) (n p : Fin 256) :
    Mixture.bat (((cfg0.win 3).blk t).view.emb (ix3 b n p)) = batchOf t b
    ∧ Mixture.row (((cfg0.win 3).blk t).view.emb (ix3 b n p)) = n
    ∧ Mixture.col (((cfg0.win 3).blk t).view.emb (ix3 b n p)) = p := by
  obtain ⟨ht, -, -, -, -, -, -, -, -, -, e0, e1, e2, -⟩ := idx_facts t
  refine ⟨Fin.ext ?_, Fin.ext ?_, Fin.ext ?_⟩
  · show win0_3.index t (0 : Fin 3) * 8 + 1 * b.val = t.val * 8 + b.val; omega
  · show win0_3.index t (1 : Fin 3) * 256 + 1 * n.val = n.val; omega
  · show win0_3.index t (2 : Fin 3) * 256 + 1 * p.val = p.val; omega

/-- WHAT POINT `t` WRITES BACK to the first result is block `t` of the mixture's real part. -/
theorem real_block (c : Dev nD) (t : Fin cfg0.N) :
    (dats m 0 c).flushed 3 t = ((cfg0.win 3).blk t).view.read (Elt Ideal)
      (Mixture.re (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S8x128x256) origin, View.ld_unit_zero (S := S8x128x1) origin]
  funext j
  obtain ⟨b, n, p, rfl⟩ : ∃ (b : Fin 8) (n p : Fin 256), j = ix3 b n p := ⟨j 0, j 1, j 2, eq_ix3 j⟩
  refine (Payload.real_apply (iblk m c 0 t) (iblk m c 1 t) (iblk m c 2 t) b n p).trans ?_
  obtain ⟨hb, hn, hp⟩ := real_out t b n p
  show _ = Mixture.wgram _ _ _ (((cfg0.win 3).blk t).view.emb (ix3 b n p)) + Mixture.wgram _ _ _ (((cfg0.win 3).blk t).view.emb (ix3 b n p))
  unfold Mixture.wgram
  rw [hb, hn, hp]
  simp only [real_in, imag_in, weight_in]

/-- An index of the first result is in point `t`'s block iff each coordinate is in the block's range on its axis. -/
theorem mem_real_block (t : Fin cfg0.N) (i : S32x256x256.Idx) :
    i ∈ ((cfg0.win 3).blk t).view.set ↔ ∀ a : Fin 3, win0_3.index t a * S8x256x256.size a ≤ (i a).val ∧ (i a).val < win0_3.index t a * S8x256x256.size a + S8x256x256.size a := by
  show i ∈ ((View.whole main_v1_0).slice (win0_3.rect t)).set ↔ _
  rw [View.set_slice_whole, Rect.mem_set_unit]
  exact Iff.rfl

/-- Every index of the first result lies in the block of the point its batch belongs to. -/
theorem real_cover (i : S32x256x256.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 256 := (i 2).isLt
  obtain ⟨t, ht⟩ := point_onto ⟨(i 0).val / 8, by omega⟩
  have ht' : t.val = (i 0).val / 8 := ht
  obtain ⟨-, -, -, -, -, -, -, -, -, -, e0, e1, e2, -⟩ := idx_facts t
  refine ⟨t, flush0_3 t, ?_⟩
  rw [mem_real_block]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- THE FIRST RESULT after the run is the mixture's real part of the argument arrays. -/
theorem real_final (c : Dev nD) :
    (dats m 0 c).arrAt 3 cfg0.N = Mixture.re (m ((c : Thread nD τ).loc main_arg0)) (m ((c : Thread nD τ).loc main_arg1)) (m ((c : Thread nD τ).loc main_arg2)) :=
  (dats m 0 c).arrAt_eq_of_cover 3 _ (fun t _ => real_block m c t) real_cover

/-! ## The imaginary part -/

/-- The coordinates of entry `(b, n, p)` of the imaginary output's block at point `t`, in the array. -/
theorem imag_out (t : Fin cfg0.N) (b : Fin 8) (n p : Fin 256) :
    Mixture.bat (((cfg0.win 4).blk t).view.emb (ix3 b n p)) = batchOf t b
    ∧ Mixture.row (((cfg0.win 4).blk t).view.emb (ix3 b n p)) = n
    ∧ Mixture.col (((cfg0.win 4).blk t).view.emb (ix3 b n p)) = p := by
  obtain ⟨ht, -, -, -, -, -, -, -, -, -, -, -, -, e0, e1, e2⟩ := idx_facts t
  refine ⟨Fin.ext ?_, Fin.ext ?_, Fin.ext ?_⟩
  · show win0_4.index t (0 : Fin 3) * 8 + 1 * b.val = t.val * 8 + b.val; omega
  · show win0_4.index t (1 : Fin 3) * 256 + 1 * n.val = n.val; omega
  · show win0_4.index t (2 : Fin 3) * 256 + 1 * p.val = p.val; omega

/-- WHAT POINT `t` WRITES BACK to the second result is block `t` of the mixture's imaginary part. -/
theorem imag_block (c : Dev nD) (t : Fin cfg0.N) :
    (dats m 0 c).flushed 4 t = ((cfg0.win 4).blk t).view.read (Elt Ideal)
      (Mixture.im (m ((c : Thread nD τ).loc main_arg0)) (m ((c : Thread nD τ).loc main_arg1)) (m ((c : Thread nD τ).loc main_arg2))) := by
  rw [Value.flushed4]
  unfold out0_4
  rw [View.canon_unit_zero origin]
  simp only [View.ld_unit_zero (S := S8x128x256) origin, View.ld_unit_zero (S := S8x128x1) origin]
  funext j
  obtain ⟨b, n, p, rfl⟩ : ∃ (b : Fin 8) (n p : Fin 256), j = ix3 b n p := ⟨j 0, j 1, j 2, eq_ix3 j⟩
  refine (Payload.imag_apply (iblk m c 0 t) (iblk m c 1 t) (iblk m c 2 t) b n p).trans ?_
  obtain ⟨hb, hn, hp⟩ := imag_out t b n p
  show _ = Mixture.wgram _ _ _ (((cfg0.win 4).blk t).view.emb (ix3 b n p)) - Mixture.wgram _ _ _ (((cfg0.win 4).blk t).view.emb (ix3 b n p))
  unfold Mixture.wgram
  rw [hb, hn, hp]
  simp only [real_in, imag_in, weight_in]

/-- An index of the second result is in point `t`'s block iff each coordinate is in the block's range on its axis. -/
theorem mem_imag_block (t : Fin cfg0.N) (i : S32x256x256.Idx) :
    i ∈ ((cfg0.win 4).blk t).view.set ↔ ∀ a : Fin 3, win0_4.index t a * S8x256x256.size a ≤ (i a).val ∧ (i a).val < win0_4.index t a * S8x256x256.size a + S8x256x256.size a := by
  show i ∈ ((View.whole main_v1_1).slice (win0_4.rect t)).set ↔ _
  rw [View.set_slice_whole, Rect.mem_set_unit]
  exact Iff.rfl

/-- Every index of the second result lies in the block of the point its batch belongs to. -/
theorem imag_cover (i : S32x256x256.Idx) : ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 256 := (i 2).isLt
  obtain ⟨t, ht⟩ := point_onto ⟨(i 0).val / 8, by omega⟩
  have ht' : t.val = (i 0).val / 8 := ht
  obtain ⟨-, -, -, -, -, -, -, -, -, -, -, -, -, e0, e1, e2⟩ := idx_facts t
  refine ⟨t, flush0_4 t, ?_⟩
  rw [mem_imag_block]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- THE SECOND RESULT after the run is the mixture's imaginary part of the argument arrays. -/
theorem imag_final (c : Dev nD) :
    (dats m 0 c).arrAt 4 cfg0.N = Mixture.im (m ((c : Thread nD τ).loc main_arg0)) (m ((c : Thread nD τ).loc main_arg1)) (m ((c : Thread nD τ).loc main_arg2)) :=
  (dats m 0 c).arrAt_eq_of_cover 4 _ (fun t _ => imag_block m c t) imag_cover

/-! ## The run, read -/

/-- The kernel's run: both results at the mixture of the argument arrays, the arguments unchanged. -/
theorem run : θ_run defs (onTc (τ := τ) (main (F := Ideal))) ⟨m, fun _ => 0, ρ⟩ fun r => ∀ c : Dev nD,
      r.2.mem ((c : Thread nD τ).loc main_v1_0) = Mixture.re (m ((c : Thread nD τ).loc main_arg0)) (m ((c : Thread nD τ).loc main_arg1)) (m ((c : Thread nD τ).loc main_arg2))
      ∧ r.2.mem ((c : Thread nD τ).loc main_v1_1) = Mixture.im (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (real_final m c), (h c).2.1.trans (imag_final m c), (h c).2.2⟩)
    (Value.run_blocks m ρ)

end Cert.KernelIdeal.Blocks

end
-- ==== Proof.lean ====
/-
  A weighted mixture of rank-one matrices, `Σ_s w[b,s] · v[b,s] v[b,s]ᴴ` with `v = r + i·im`, computed by a kernel that
  takes 8 batches per grid point and forms four batched matrix products on each block, against the reference's four
  contractions over whole arrays.

  On the extended reals both programs compute, at `(b, n, p)`,
    real part       Σ_s (r[b,s,n]·w[b,s])·r[b,s,p] + Σ_s (i[b,s,n]·w[b,s])·i[b,s,p]
    imaginary part  Σ_s (i[b,s,n]·w[b,s])·r[b,s,p] − Σ_s (r[b,s,n]·w[b,s])·i[b,s,p]
  with the same grouping of every product, so the two sides are equal term by term: no law of arithmetic joins
  them and the finiteness of the inputs is never used. The kernel's change of float format before its products
  is the identity on the extended reals, and its products into a zero accumulator are the plain sums.

  Spec.lean states the mixture; RefSide.lean reads the reference's operations at an index; Payload.lean reads the
  kernel body's stored values at an index of a block; Blocks.lean places the blocks in the result arrays. The
  frames are the generated ones; the idealization rewrote nothing, so nothing is to be preserved.
-/
import proofs.«153771_j71313636983193_1_alg».proof.Defs
import proofs.«153771_j71313636983193_1_alg».proof.Proof.Gen.Kernel
import proofs.«153771_j71313636983193_1_alg».proof.Proof.Gen.Kernel.Skeleton
import proofs.«153771_j71313636983193_1_alg».proof.Proof.Gen.Kernel.Launch
import proofs.«153771_j71313636983193_1_alg».proof.Proof.Gen.Kernel.Points
import proofs.«153771_j71313636983193_1_alg».proof.Proof.Gen.Kernel.Frame
import proofs.«153771_j71313636983193_1_alg».proof.Proof.Gen.KernelIdeal
import proofs.«153771_j71313636983193_1_alg».proof.Proof.Gen.KernelIdeal.Skeleton
import proofs.«153771_j71313636983193_1_alg».proof.Proof.Gen.KernelIdeal.Launch
import proofs.«153771_j71313636983193_1_alg».proof.Proof.Gen.KernelIdeal.Points
import proofs.«153771_j71313636983193_1_alg».proof.Proof.Gen.KernelIdeal.Frame
import proofs.«153771_j71313636983193_1_alg».proof.Proof.Gen.ReferenceIdeal
import proofs.«153771_j71313636983193_1_alg».proof.Proof.Gen.Pre_finite_inputs
import proofs.«153771_j71313636983193_1_alg».proof.Proof.Gen.KernelIdeal.Value
import proofs.«153771_j71313636983193_1_alg».proof.Proof.Gen.ReferenceIdeal.Run
import proofs.«153771_j71313636983193_1_alg».proof.Proof.Gen.ReferenceIdeal.Read
import proofs.«153771_j71313636983193_1_alg».proof.Proof.RefSide
import proofs.«153771_j71313636983193_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the mixture's real part in the first
    result and its imaginary part in the second. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v8_eq, Cert.ReferenceIdeal.RefSide.real_part, (hagree c).1, (hagree c).2.1, (hagree c).2.2]
  · rw [Cert.ReferenceIdeal.Read.val_main_v11_eq, Cert.ReferenceIdeal.RefSide.imag_part, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
